-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v21) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x4096x3 : Shape := ⟨3, ![8, 4096, 3]⟩
abbrev S_ : Shape := ⟨0, ![]⟩

class Facts : Prop where
  bcast_S_S8x4096x3 : S_.BroadcastsInDim S8x4096x3 (![] : Fin 0 → Fin S8x4096x3.rank)
  reducesTo_S8x4096x3_S_d0_1_2 : S8x4096x3.ReducesTo [0, 1, 2] S_
  h_S_ : 0 < S_.numel

variable [Facts]

def fn {F : FTy → Type} [FloatOps F] (main_arg0 : FVec F S8x4096x3 .f32) (main_arg1 : FVec F S8x4096x3 .f32) : IVec S_ 1 :=
  let main_v0 : FVec F S8x4096x3 .f32 := Host.absf main_arg0
  let main_cst : FVec F S_ .f32 := constant S_ .f32 0x7F800000#32
  let main_v1 : FVec F S8x4096x3 .f32 := broadcastInDim S8x4096x3 ![] bcast_S_S8x4096x3 main_cst
  let main_v2 : IVec S8x4096x3 1 := cmpf .olt main_v0 main_v1
  let main_c : IVec S_ 1 := constantI S_ 1 1#1
  let main_v3 : IVec S_ 1 := (fun x v => Host.reduce IntOp.andi x v reducesTo_S8x4096x3_S_d0_1_2 h_S_) main_v2 main_c
  let main_v4 : FVec F S8x4096x3 .f32 := Host.absf main_arg1
  let main_cst_0 : FVec F S_ .f32 := constant S_ .f32 0x7F800000#32
  let main_v5 : FVec F S8x4096x3 .f32 := broadcastInDim S8x4096x3 ![] bcast_S_S8x4096x3 main_cst_0
  let main_v6 : IVec S8x4096x3 1 := cmpf .olt main_v4 main_v5
  let main_c_1 : IVec S_ 1 := constantI S_ 1 1#1
  let main_v7 : IVec S_ 1 := (fun x v => Host.reduce IntOp.andi x v reducesTo_S8x4096x3_S_d0_1_2 h_S_) main_v6 main_c_1
  let main_v8 : IVec S_ 1 := andi main_v3 main_v7
  main_v8
-- ==== Kernel.lean ====
abbrev S8x4096x3 : Shape := ⟨3, ![8, 4096, 3]⟩
abbrev S8x4096 : Shape := ⟨2, ![8, 4096]⟩
abbrev S8x512x3 : Shape := ⟨3, ![8, 512, 3]⟩
abbrev S8x512 : Shape := ⟨2, ![8, 512]⟩
abbrev S8x512x512 : Shape := ⟨3, ![8, 512, 512]⟩
abbrev S8x512x1 : Shape := ⟨3, ![8, 512, 1]⟩
abbrev S8x1x512 : Shape := ⟨3, ![8, 1, 512]⟩
abbrev S_ : Shape := ⟨0, ![]⟩

abbrev nBuf : Space → Nat
  | .hbm => 13
  | .vmem => 12
  | .smem => 0
  | _ => 0

abbrev bufTy : (tb : Table) → Fin (tcTables nBuf tb) → BufTy
  | .hbm, ⟨0, _⟩ => ⟨S8x4096x3, .f32⟩
  | .hbm, ⟨1, _⟩ => ⟨S8x4096x3, .f32⟩
  | .hbm, ⟨2, _⟩ => ⟨S8x4096, .f32⟩
  | .hbm, ⟨3, _⟩ => ⟨S8x4096, .f32⟩
  | .hbm, ⟨4, _⟩ => ⟨S_, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S_, .f32⟩
  | .local _ .vmem, ⟨0, _⟩ => ⟨S8x512x3, .f32⟩
  | .local _ .vmem, ⟨1, _⟩ => ⟨S8x512x3, .f32⟩
  | .local _ .vmem, ⟨2, _⟩ => ⟨S8x512x3, .f32⟩
  | .local _ .vmem, ⟨3, _⟩ => ⟨S8x512x3, .f32⟩
  | .local _ .vmem, ⟨4, _⟩ => ⟨S8x512, .f32⟩
  | .local _ .vmem, ⟨5, _⟩ => ⟨S8x512, .f32⟩
  | .local _ .vmem, ⟨6, _⟩ => ⟨S8x512x3, .f32⟩
  | .local _ .vmem, ⟨7, _⟩ => ⟨S8x512x3, .f32⟩
  | .local _ .vmem, ⟨8, _⟩ => ⟨S8x512x3, .f32⟩
  | .local _ .vmem, ⟨9, _⟩ => ⟨S8x512x3, .f32⟩
  | .local _ .vmem, ⟨10, _⟩ => ⟨S8x512, .f32⟩
  | .local _ .vmem, ⟨11, _⟩ => ⟨S8x512, .f32⟩
  | _, _ => ⟨S8x4096x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_cst_1 : Ref sig .tc := ⟨.hbm, 8, rfl⟩
abbrev main_v4 : Ref sig .tc := ⟨.hbm, 9, rfl⟩
abbrev main_cst_2 : Ref sig .tc := ⟨.hbm, 10, rfl⟩
abbrev main_v5 : Ref sig .tc := ⟨.hbm, 11, rfl⟩
abbrev main_v6 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg2_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11

abbrev nD : Nat := 1
abbrev τ : Topo := Topo.v7x

variable {F : FTy → Type} [FloatOps F]

abbrev grid0 : Pipeline.Grid := ⟨2, ![8, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg1.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S8x512x3 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S8x512x3 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S8x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev grid1 : Pipeline.Grid := ⟨2, ![8, 8], ![false, false]⟩

def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, c0_i32_0.toNat]

def cc1_transform_1 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg1.toNat, c0_i32_0.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage1_0 : Fin 2 → Memref sig .tc .vmem S8x512x3 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 2 → Memref sig .tc .vmem S8x512x3 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 2 → Memref sig .tc .vmem S8x512 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

class Facts₀ : Prop where
  inb_S8x512_S8x512_0_0 : ∀ a, (![0, 0] : Fin 2 → Nat) a + S8x512.size a ≤ S8x512.size a
  h_S8x512 : 0 < S8x512.numel
  inb_S8x512x3_S8x512x3_0_0_0 : ∀ a, (![0, 0, 0] : Fin 3 → Nat) a + S8x512x3.size a ≤ S8x512x3.size a
  h_S8x512x3 : 0 < S8x512x3.numel
  bitsLt_bf16_f32 : FTy.bits .bf16 < FTy.bits .f32
  reduces_S8x512x3_S8x512 : S8x512x3.Reduces [2] S8x512
  shapeCasts_S8x512_S8x512x1 : S8x512.ShapeCasts S8x512x1
  shapeCasts_S8x512_S8x1x512 : S8x512.ShapeCasts S8x1x512
  broadcasts_S8x512x1_S8x512x512 : S8x512x1.Broadcasts S8x512x512
  broadcasts_S8x1x512_S8x512x512 : S8x1x512.Broadcasts S8x512x512
  reduces_S8x512x512_S8x512 : S8x512x512.Reduces [2] S8x512
  shapeCasts_S8x512_S8x512 : S8x512.ShapeCasts S8x512
  reducesTo_S8x4096_S_d0_1 : S8x4096.ReducesTo [0, 1] S_
  h_S_ : 0 < S_.numel
  dot_S8x512x3_S8x512x3_S8x512x512_2_2_1_1_0_0_wf : DotDims.WF S8x512x3 S8x512x3 S8x512x512 [2] [2] [1] [1] [0] [0]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8x512x3.size a ≤ S8x4096x3.size a
  hwx0_0 : ∀ i : grid0.Coords, EltTy.bits .f32 = 32 ∨ (Rect.block (s := S8x4096x3) S8x512x3.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8x512x3.size a ≤ S8x4096x3.size a
  hwx0_1 : ∀ i : grid0.Coords, EltTy.bits .f32 = 32 ∨ (Rect.block (s := S8x4096x3) S8x512x3.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S8x512.size a ≤ S8x4096.size a
  hwx0_2 : ∀ i : grid0.Coords, EltTy.bits .f32 = 32 ∨ (Rect.block (s := S8x4096) S8x512.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S8x512x3.size a ≤ S8x4096x3.size a
  hwx1_0 : ∀ i : grid1.Coords, EltTy.bits .f32 = 32 ∨ (Rect.block (s := S8x4096x3) S8x512x3.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S8x512x3.size a ≤ S8x4096x3.size a
  hwx1_1 : ∀ i : grid1.Coords, EltTy.bits .f32 = 32 ∨ (Rect.block (s := S8x4096x3) S8x512x3.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S8x512.size a ≤ S8x4096.size a
  hwx1_2 : ∀ i : grid1.Coords, EltTy.bits .f32 = 32 ∨ (Rect.block (s := S8x4096) S8x512.size (cc1_transform_2 i) (hinb1_2 i)).WholeWords (EltTy.packing .f32)

variable [Facts₀]

def dot_S8x512x3_S8x512x3_S8x512x512_2_2_1_1_0_0 : DotDims S8x512x3 S8x512x3 S8x512x512 where
  lhsContracting := [2]
  rhsContracting := [2]
  lhsNonContracting := [1]
  rhsNonContracting := [1]
  lhsBatch := [0]
  rhsBatch := [0]
  wf := dot_S8x512x3_S8x512x3_S8x512x512_2_2_1_1_0_0_wf

abbrev win0_0 : Pipeline.Window sig grid0 :=
  Pipeline.Window.ofSpec (Memref.whole main_arg0) S8x512x3.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S8x512x3.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S8x512.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_arg1) S8x512x3.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg0) S8x512x3.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v1) S8x512.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

class Facts : Prop extends Facts₀ where

variable [Facts]
-- ==== ReferenceIdeal.lean ====
abbrev S8x4096x3 : Shape := ⟨3, ![8, 4096, 3]⟩
abbrev S_ : Shape := ⟨0, ![]⟩
abbrev S8x4096 : Shape := ⟨2, ![8, 4096]⟩
abbrev S8x4096x4096 : Shape := ⟨3, ![8, 4096, 4096]⟩
abbrev S8x4096x1 : Shape := ⟨3, ![8, 4096, 1]⟩
abbrev S8x1x4096 : Shape := ⟨3, ![8, 1, 4096]⟩

abbrev nBuf : Space → Nat
  | .hbm => 34
  | .vmem => 0
  | .smem => 0
  | _ => 0

abbrev bufTy : (tb : Table) → Fin (tcTables nBuf tb) → BufTy
  | .hbm, ⟨0, _⟩ => ⟨S8x4096x3, .f32⟩
  | .hbm, ⟨1, _⟩ => ⟨S8x4096x3, .f32⟩
  | .hbm, ⟨2, _⟩ => ⟨S8x4096x3, .f32⟩
  | .hbm, ⟨3, _⟩ => ⟨S_, .f32⟩
  | .hbm, ⟨4, _⟩ => ⟨S8x4096, .f32⟩
  | .hbm, ⟨5, _⟩ => ⟨S8x4096x3, .f32⟩
  | .hbm, ⟨6, _⟩ => ⟨S_, .f32⟩
  | .hbm, ⟨7, _⟩ => ⟨S8x4096, .f32⟩
  | .hbm, ⟨8, _⟩ => ⟨S8x4096x4096, .f32⟩
  | .hbm, ⟨9, _⟩ => ⟨S8x4096x1, .f32⟩
  | .hbm, ⟨10, _⟩ => ⟨S8x1x4096, .f32⟩
  | .hbm, ⟨11, _⟩ => ⟨S8x4096x4096, .f32⟩
  | .hbm, ⟨12, _⟩ => ⟨S8x4096x4096, .f32⟩
  | .hbm, ⟨13, _⟩ => ⟨S8x4096x4096, .f32⟩
  | .hbm, ⟨14, _⟩ => ⟨S_, .f32⟩
  | .hbm, ⟨15, _⟩ => ⟨S8x4096x4096, .f32⟩
  | .hbm, ⟨16, _⟩ => ⟨S8x4096x4096, .f32⟩
  | .hbm, ⟨17, _⟩ => ⟨S8x4096x4096, .f32⟩
  | .hbm, ⟨18, _⟩ => ⟨S_, .f32⟩
  | .hbm, ⟨19, _⟩ => ⟨S8x4096x4096, .f32⟩
  | .hbm, ⟨20, _⟩ => ⟨S8x4096x4096, .f32⟩
  | .hbm, ⟨21, _⟩ => ⟨S_, .f32⟩
  | .hbm, ⟨22, _⟩ => ⟨S8x4096, .f32⟩
  | .hbm, ⟨23, _⟩ => ⟨S_, .f32⟩
  | .hbm, ⟨24, _⟩ => ⟨S8x4096, .f32⟩
  | .hbm, ⟨25, _⟩ => ⟨S_, .f32⟩
  | .hbm, ⟨26, _⟩ => ⟨S_, .f32⟩
  | .hbm, ⟨27, _⟩ => ⟨S_, .f32⟩
  | .hbm, ⟨28, _⟩ => ⟨S_, .f32⟩
  | .hbm, ⟨29, _⟩ => ⟨S_, .f32⟩
  | .hbm, ⟨30, _⟩ => ⟨S_, .f32⟩
  | .hbm, ⟨31, _⟩ => ⟨S_, .f32⟩
  | .hbm, ⟨32, _⟩ => ⟨S_, .f32⟩
  | .hbm, ⟨33, _⟩ => ⟨S_, .f32⟩
  | _, _ => ⟨S8x4096x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_cst_1 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_cst_2 : Ref sig .tc := ⟨.hbm, 18, rfl⟩
abbrev main_v13 : Ref sig .tc := ⟨.hbm, 19, rfl⟩
abbrev main_v14 : Ref sig .tc := ⟨.hbm, 20, rfl⟩
abbrev main_cst_3 : Ref sig .tc := ⟨.hbm, 21, rfl⟩
abbrev main_v15 : Ref sig .tc := ⟨.hbm, 22, rfl⟩
abbrev main_cst_4 : Ref sig .tc := ⟨.hbm, 23, rfl⟩
abbrev main_v16 : Ref sig .tc := ⟨.hbm, 24, rfl⟩
abbrev main_cst_5 : Ref sig .tc := ⟨.hbm, 25, rfl⟩
abbrev main_v17 : Ref sig .tc := ⟨.hbm, 26, rfl⟩
abbrev main_cst_6 : Ref sig .tc := ⟨.hbm, 27, rfl⟩
abbrev main_v18 : Ref sig .tc := ⟨.hbm, 28, rfl⟩
abbrev main_cst_7 : Ref sig .tc := ⟨.hbm, 29, rfl⟩
abbrev main_v19 : Ref sig .tc := ⟨.hbm, 30, rfl⟩
abbrev main_cst_8 : Ref sig .tc := ⟨.hbm, 31, rfl⟩
abbrev main_v20 : Ref sig .tc := ⟨.hbm, 32, rfl⟩
abbrev main_v21 : Ref sig .tc := ⟨.hbm, 33, rfl⟩

abbrev nD : Nat := 1
abbrev τ : Topo := Topo.v7x

variable {F : FTy → Type} [FloatOps F]

class Facts₀ : Prop where
  reducesTo_S8x4096x3_S8x4096_d2 : S8x4096x3.ReducesTo [2] S8x4096
  h_S_ : 0 < S_.numel
  bcast_S8x4096_S8x4096x1_0_1 : S8x4096.BroadcastsInDim S8x4096x1 (![0, 1] : Fin 2 → Fin S8x4096x1.rank)
  bcast_S8x4096_S8x1x4096_0_2 : S8x4096.BroadcastsInDim S8x1x4096 (![0, 2] : Fin 2 → Fin S8x1x4096.rank)
  bcast_S8x4096x1_S8x4096x4096_0_1_2 : S8x4096x1.BroadcastsInDim S8x4096x4096 (![0, 1, 2] : Fin 3 → Fin S8x4096x4096.rank)
  bcast_S8x1x4096_S8x4096x4096_0_1_2 : S8x1x4096.BroadcastsInDim S8x4096x4096 (![0, 1, 2] : Fin 3 → Fin S8x4096x4096.rank)
  bcast_S_S8x4096x4096 : S_.BroadcastsInDim S8x4096x4096 (![] : Fin 0 → Fin S8x4096x4096.rank)
  reducesTo_S8x4096x4096_S8x4096_d2 : S8x4096x4096.ReducesTo [2] S8x4096
  reducesTo_S8x4096x4096_S8x4096_d1 : S8x4096x4096.ReducesTo [1] S8x4096
  reducesTo_S8x4096_S_d0_1 : S8x4096.ReducesTo [0, 1] S_
  dot_S8x4096x3_S8x4096x3_S8x4096x4096_2_2_1_1_0_0_wf : DotDims.WF S8x4096x3 S8x4096x3 S8x4096x4096 [2] [2] [1] [1] [0] [0]

variable [Facts₀]

def dot_S8x4096x3_S8x4096x3_S8x4096x4096_2_2_1_1_0_0 : DotDims S8x4096x3 S8x4096x3 S8x4096x4096 where
  lhsContracting := [2]
  rhsContracting := [2]
  lhsNonContracting := [1]
  rhsNonContracting := [1]
  lhsBatch := [0]
  rhsBatch := [0]
  wf := dot_S8x4096x3_S8x4096x3_S8x4096x4096_2_2_1_1_0_0_wf

class Facts : Prop extends Facts₀ where

variable [Facts]
-- ==== Proof.Tiles0.lean ====
/-
  The first pallas_call (query points: argument 0; candidate points: argument 1), one grid point at a time.

  The grid is 8 × 8: point `t` works on query tile `t / 8` (512 query points of every batch) against candidate tile
  `t % 8`. What the body leaves in the output tile is the body's last stored value: at the first candidate tile the
  running minimum is first reset to `+∞` and that reset is what the body reads back; at the others it reads what the
  point before left. The two input tiles are plain restrictions of the argument arrays.
-/
import proofs.«107743_j28183575396380_1_alg».proof.Proof.Gen.KernelIdeal.Frame
import Idealize.ShloMosaic.Lib.Pipeline.Value
import Idealize.ShloMosaic.Lib.ValueIdx
import Idealize.ShloMosaic.Lib.Tactic

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Reg0

open Cert.KernelIdeal Cert.KernelIdeal.Gen

variable {F : FTy → Type} [FloatOps F]

theorem hz2 : (![0, 0] : Fin 2 → Nat) = fun _ => 0 := funext fun a => by fin_cases a <;> rfl
theorem hz3 : (![0, 0, 0] : Fin 3 → Nat) = fun _ => 0 := funext fun a => by fin_cases a <;> rfl

/-- At a later candidate tile the body leaves the minimum of what the output tile held and this tile's minima. -/
theorem out_B (c : Dev nD) (i : grid0.Coords) (a2 : Memref sig .tc .vmem S8x512x3 .f32) (h2 : a2.IsWhole)
    (a3 : Memref sig .tc .vmem S8x512x3 .f32) (h3 : a3.IsWhole) (a4 : Memref sig .tc .vmem S8x512 .f32) (h4 : a4.IsWhole)
    (hc : ¬cond0_0 i) (x0 x1 : Vec F S8x512x3 .f32) (xo : Vec F S8x512 .f32) :
    out0_B_2 c i a2 h2 a3 h3 a4 h4 hc x0 x1 xo = k0_pay2 x0 x1 xo := by
  unfold out0_B_2
  rw [View.read_writes_eq_canon _ _ _ (cover0_B_2 c i a2 h2 a3 h3 a4 h4 hc x0 x1 xo)]
  unfold kernelRun0_B
  dsimp only
  sl_unfold_words
  rw [View.canon_unit_zero hz2]
  simp only [View.readAt_eq_ld, h2.read_unread, h3.read_unread, h4.read_unread, View.ld_unit_zero (S := S8x512x3) hz3,
    View.ld_unit_zero (S := S8x512) hz2]

/-- At the first candidate tile the body first resets the output tile to `+∞` and reads that back: it leaves the
    minimum of `+∞` and this tile's minima. -/
theorem out_A (c : Dev nD) (i : grid0.Coords) (a2 : Memref sig .tc .vmem S8x512x3 .f32) (h2 : a2.IsWhole)
    (a3 : Memref sig .tc .vmem S8x512x3 .f32) (h3 : a3.IsWhole) (a4 : Memref sig .tc .vmem S8x512 .f32) (h4 : a4.IsWhole)
    (hc : cond0_0 i) (x0 x1 : Vec F S8x512x3 .f32) :
    out0_A_2 c i a2 h2 a3 h3 a4 h4 hc x0 x1 = k0_pay2 x0 x1 (k0_pay1 (F := F)) := by
  unfold out0_A_2
  rw [View.read_writes_eq_canon _ _ _ (cover0_A_2 c i a2 h2 a3 h3 a4 h4 hc x0 x1)]
  unfold kernelRun0_A
  dsimp only
  sl_unfold_words
  rw [View.canon_cons_unit_zero (S := S8x512) hz2]
  simp only [View.readAt_eq_ld, h2.read_unread, h3.read_unread, View.ld_unit_zero (S := S8x512x3) hz3,
    View.readCov_unit_zero (S := S8x512) _ hz2]

/-! ## The tiles are restrictions of the arrays -/

/-- Which tile each window is on at grid point `t`: decided over the 64 points. -/
theorem idx_facts : ∀ t : Fin cfg0.N,
    win0_0.index t (0 : Fin 3) = 0 ∧ win0_0.index t (1 : Fin 3) = t.val / 8 ∧ win0_0.index t (2 : Fin 3) = 0
    ∧ win0_1.index t (0 : Fin 3) = 0 ∧ win0_1.index t (1 : Fin 3) = t.val % 8 ∧ win0_1.index t (2 : Fin 3) = 0
    ∧ win0_2.index t (0 : Fin 2) = 0 ∧ win0_2.index t (1 : Fin 2) = t.val / 8 :=
  (by decide +kernel : ∀ t : Fin grid0.N, _)

variable (V : (c : Dev nD) → (b : Ref sig .tc) → Buf (Elt F) ((c : Thread nD τ).loc b))

/-- The query tile at point `t`, the candidate tile, and the two arrays, at their literal types. -/
abbrev qblk (c : Dev nD) (t : Fin cfg0.N) : Vec F S8x512x3 .f32 := iblk0 V c 0 t
abbrev cblk (c : Dev nD) (t : Fin cfg0.N) : Vec F S8x512x3 .f32 := iblk0 V c 1 t
abbrev qarr (c : Dev nD) : Vec F S8x4096x3 .f32 := V c main_arg0
abbrev carr (c : Dev nD) : Vec F S8x4096x3 .f32 := V c main_arg1

/-- Query tile `t / 8`: row `r` of the tile is row `512 (t / 8) + r` of argument 0. -/
theorem qblk_apply (c : Dev nD) (t : Fin cfg0.N) (b : Fin 8) (r : Fin 512) (d : Fin 3) (n : Fin 4096)
    (hn : n.val = 512 * (t.val / 8) + r.val) : qblk V c t (ix3 b r d) = qarr V c (ix3 b n d) := by
  obtain ⟨e0, e1, e2, -, -, -, -, -⟩ := idx_facts t
  unfold qblk qarr iblk0
  rw [View.read_apply]
  show V c main_arg0 (((cfg0.win 0).blk t).view.emb (ix3 b r d)) = V c main_arg0 (ix3 b n d)
  congr 1
  funext a; apply Fin.ext
  match a with
  | ⟨0, _⟩ => show win0_0.index t (0 : Fin 3) * 8 + 1 * b.val = b.val; omega
  | ⟨1, _⟩ => show win0_0.index t (1 : Fin 3) * 512 + 1 * r.val = n.val; omega
  | ⟨2, _⟩ => show win0_0.index t (2 : Fin 3) * 3 + 1 * d.val = d.val; omega

/-- Candidate tile `t % 8`: row `q` of the tile is row `512 (t % 8) + q` of argument 1. -/
theorem cblk_apply (c : Dev nD) (t : Fin cfg0.N) (b : Fin 8) (q : Fin 512) (d : Fin 3) (n : Fin 4096)
    (hn : n.val = 512 * (t.val % 8) + q.val) : cblk V c t (ix3 b q d) = carr V c (ix3 b n d) := by
  obtain ⟨-, -, -, e0, e1, e2, -, -⟩ := idx_facts t
  unfold cblk carr iblk0
  rw [View.read_apply]
  show V c main_arg1 (((cfg0.win 1).blk t).view.emb (ix3 b q d)) = V c main_arg1 (ix3 b n d)
  congr 1
  funext a; apply Fin.ext
  match a with
  | ⟨0, _⟩ => show win0_1.index t (0 : Fin 3) * 8 + 1 * b.val = b.val; omega
  | ⟨1, _⟩ => show win0_1.index t (1 : Fin 3) * 512 + 1 * q.val = n.val; omega
  | ⟨2, _⟩ => show win0_1.index t (2 : Fin 3) * 3 + 1 * d.val = d.val; omega

end Cert.KernelIdeal.Reg0

end
-- ==== Proof.Spec.lean ====
/-
  Chamfer distance, the mathematics both programs compute at the ideal values.

  A point set is an array `[8, 4096, 3]`: batch `b`, point `n`, coordinate `d`; `row A b n` is the point.
  Between two points `u v : Fin 3 → EReal` the (floored) squared distance is spelled the expanded way,
  `max ((|u|² + |v|²) − 2·⟨u, v⟩) 0`, and `near A B b n` is its minimum over all 4096 points `m` of `B` in the same
  batch — a fold of `min` from `+∞`. The kernel computes that minimum 512 candidates at a time, keeping a running
  minimum; the running minimum is carried here by its universal property (`MinBelow`): `v` is the minimum of the
  first `k` candidates iff the lower bounds of `v` are exactly the common lower bounds of those candidates.
-/
import Idealize.ShloMosaic.PureOps.Ideal
import Idealize.ShloMosaic.PureOps.Ideal.Laws
import Idealize.ShloMosaic.Lib.ValueIdx

noncomputable section

namespace Cert.Chamfer

open Idealize.ShloMosaic Idealize.ShloMosaic.ValueIdx

/-- The three literals of the computation, kept as the words both programs print. -/
abbrev two : EReal := Ideal.ofBits .f32 0x40000000#32
abbrev zero : EReal := Ideal.ofBits .f32 0x00000000#32
abbrev top : EReal := Ideal.ofBits .f32 0x7F800000#32

/-- The word `0x7F800000` is `+∞`, the top of the extended reals. -/
theorem top_eq : top = ⊤ := by simp [top, Ideal.ofBits, Ideal.ieee]

/-- `max ((|u|² + |v|²) − 2·⟨u, v⟩) 0`: the floored squared distance of two points of 3-space, expanded. -/
def d2 (u v : Fin 3 → EReal) : EReal :=
  max ((∑ d : Fin 3, u d * u d + ∑ d : Fin 3, v d * v d) - two * ∑ d : Fin 3, u d * v d) zero

/-- It is symmetric: the sum of the squared norms commutes and so does each product of coordinates. -/
theorem d2_comm (u v : Fin 3 → EReal) : d2 u v = d2 v u := by
  unfold d2
  rw [add_comm (∑ d : Fin 3, u d * u d)]
  simp only [mul_comm (u _) (v _)]

/-- Point `n` of batch `b` of a point set. -/
def row (A : (⟨3, ![8, 4096, 3]⟩ : Shape).Idx → EReal) (b : Fin 8) (n : Fin 4096) : Fin 3 → EReal :=
  fun d => A (ix3 b n d)

/-- The minimum of a family of candidates, folded from `+∞`. -/
def minOver {n : Nat} (f : Fin n → EReal) : EReal := (Finset.univ : Finset (Fin n)).fold min top f

/-- Its universal property: the lower bounds of the minimum are the common lower bounds of the candidates. -/
theorem le_minOver {n : Nat} (f : Fin n → EReal) (x : EReal) : x ≤ minOver f ↔ ∀ m, x ≤ f m := by
  unfold minOver
  rw [Finset.le_fold_min, top_eq]
  exact ⟨fun h m => h.2 m (Finset.mem_univ m), fun h => ⟨le_top, fun m _ => h m⟩⟩

/-- The squared distance from point `n` of `A` to the nearest point of `B`, in batch `b`. -/
def near (A B : (⟨3, ![8, 4096, 3]⟩ : Shape).Idx → EReal) (b : Fin 8) (n : Fin 4096) : EReal :=
  minOver fun m : Fin 4096 => d2 (row A b n) (row B b m)

/-- The same as an array `[8, 4096]`. -/
def nearest (A B : (⟨3, ![8, 4096, 3]⟩ : Shape).Idx → EReal) : (⟨2, ![8, 4096]⟩ : Shape).Idx → EReal :=
  fun i => near A B (i 0) (i 1)

/-- `v` is the minimum of the candidates `f m`, `m < k`. -/
def MinBelow (v : EReal) (k : Nat) (f : Fin 4096 → EReal) : Prop :=
  ∀ x : EReal, x ≤ v ↔ ∀ m : Fin 4096, m.val < k → x ≤ f m

/-- The first tile: from `+∞`, the minimum with the first 512 candidates is their minimum. -/
theorem MinBelow.first (f : Fin 4096 → EReal) (g : Fin 512 → EReal) (hg : ∀ q : Fin 512, g q = f ⟨q.val, by omega⟩) :
    MinBelow (min top (minOver g)) 512 f := by
  intro x
  rw [le_min_iff, le_minOver, top_eq]
  constructor
  · intro h m hm
    have := h.2 ⟨m.val, hm⟩
    rwa [hg] at this
  · intro h
    exact ⟨le_top, fun q => by rw [hg]; exact h _ q.isLt⟩

/-- A further tile: the minimum of the first `k` candidates with the minimum of the next 512 is the minimum of the
    first `k + 512`. -/
theorem MinBelow.next {v : EReal} {k : Nat} {f : Fin 4096 → EReal} (hv : MinBelow v k f) (hk : k + 512 ≤ 4096)
    (g : Fin 512 → EReal) (hg : ∀ q : Fin 512, g q = f ⟨k + q.val, by omega⟩) :
    MinBelow (min v (minOver g)) (k + 512) f := by
  intro x
  rw [le_min_iff, le_minOver, hv x]
  constructor
  · intro h m hm
    by_cases hlt : m.val < k
    · exact h.1 m hlt
    · have := h.2 ⟨m.val - k, by omega⟩
      rw [hg] at this
      have e : (⟨k + (m.val - k), by omega⟩ : Fin 4096) = m := Fin.ext (by show k + (m.val - k) = m.val; omega)
      rwa [e] at this
  · intro h
    exact ⟨fun m hm => h m (by omega), fun q => by rw [hg]; exact h _ (by show k + q.val < k + 512; omega)⟩

/-- After the last tile the running minimum is the minimum of all the candidates. -/
theorem MinBelow.eq_minOver {v : EReal} {f : Fin 4096 → EReal} (hv : MinBelow v 4096 f) : v = minOver f :=
  eq_of_forall_le_iff fun x => by
    rw [hv x, le_minOver]
    exact ⟨fun h m => h m m.isLt, fun h m _ => h m⟩

end Cert.Chamfer

end
-- ==== Proof.Payload.lean ====
/-
  The kernel body's arithmetic, read at an index, at the ideal values.

  One step of the kernel takes a tile of 512 query points (x0, rows (b, r)), a tile of 512 candidate points
  (x1, rows (b, q)) and the running minimum (xo). It forms the 512 x 512 table of floored squared distances the
  expanded way, |u|^2 + |v|^2 - 2 <u, v> floored at 0: the two squared norms are sums over the three coordinates,
  spread along a column and along a row of the table; the inner products are one batched matrix product contracting
  the coordinate axis into a zero accumulator (the narrowing of its operands to a shorter format is the identity on
  extended reals). Then it takes each row's minimum over the candidates, folded from +inf, and the minimum of that
  with the running value. The first payload is the +inf splat the running minimum starts from.

  Each non-pointwise operation gets one small lemma at explicit coordinates; the payload theorem chains them.
-/
import proofs.«107743_j28183575396380_1_alg».proof.Proof.Gen.KernelIdeal.Skeleton
import proofs.«107743_j28183575396380_1_alg».proof.Proof.Spec
import Idealize.ShloMosaic.Lib.Pipeline.Value
import Idealize.ShloMosaic.Lib.ValueIdx
import Idealize.ShloMosaic.PureOps.Ideal
import Idealize.ShloMosaic.PureOps.Ideal.Laws
import Idealize.ShloMosaic.PureOps.Reduce

noncomputable section

namespace Cert.KernelIdeal.Pay

open Cert.KernelIdeal Cert.KernelIdeal.Gen Cert.Chamfer Idealize.ShloMosaic Idealize.ShloMosaic.ValueIdx

/-! ## The sum over the three coordinates -/

/-- A sum over the last axis of a [8, 512, 3] array, at (b, r), is the sum over the coordinate d of the entries
    (b, r, d): the reduced index with d put back on axis 2 is (b, r, d), coordinate by coordinate. -/
theorem laneSum_apply (v : FVec Ideal S8x512x3 .f32) (h : S8x512x3.Reduces [2] S8x512) (hφ : FKind.Formats .f32)
    (hacc : (0x00000000#32 : BitVec 32) = FKind.add.neutral .f32 hφ) (b : Fin 8) (r : Fin 512) :
    multiReduction .add [2] S8x512 v 0x00000000#32 h hφ hacc (ix2 b r) = ∑ d : Fin 3, v (ix3 b r d) := by
  refine (Ideal.multiReduction_add_single v _ h hφ hacc (ix2 b r)).trans ?_
  refine Finset.sum_congr rfl fun d _ => congrArg v (funext fun a => Fin.ext ?_)
  match a with
  | ⟨0, _⟩ => rfl
  | ⟨1, _⟩ => rfl
  | ⟨2, _⟩ => rfl

/-! ## A per-row value spread along a column, a per-candidate value along a row -/

/-- [8, 512] viewed as [8, 512, 1] and repeated along the last axis: the table's entry (b, r, q) is the value at (b, r). -/
theorem col_apply (y : FVec Ideal S8x512 .f32) (hc : S8x512.ShapeCasts S8x512x1) (hb : S8x512x1.Broadcasts S8x512x512)
    (b : Fin 8) (r q : Fin 512) :
    broadcastTo S8x512x512 (shapeCast S8x512x1 y hc) hb (ix3 b r q) = y (ix2 b r) := by
  refine (broadcastTo_apply _ hb (ix3 b r q) (ix3 b r (0 : Fin 1)) fun a => ?_).trans ?_
  · match a with
    | ⟨0, _⟩ => rfl
    | ⟨1, _⟩ => rfl
    | ⟨2, _⟩ => rfl
  · refine shapeCast_apply y hc _ _ ?_
    rw [Shape.rowMajor_val_two, Shape.rowMajor_val_three]
    show b.val * 512 + r.val = (b.val * 512 + r.val) * 1 + 0
    omega

/-- [8, 512] viewed as [8, 1, 512] and repeated along the middle axis: the table's entry (b, r, q) is the value at (b, q). -/
theorem row_apply (y : FVec Ideal S8x512 .f32) (hc : S8x512.ShapeCasts S8x1x512) (hb : S8x1x512.Broadcasts S8x512x512)
    (b : Fin 8) (r q : Fin 512) :
    broadcastTo S8x512x512 (shapeCast S8x1x512 y hc) hb (ix3 b r q) = y (ix2 b q) := by
  refine (broadcastTo_apply _ hb (ix3 b r q) (ix3 b (0 : Fin 1) q) fun a => ?_).trans ?_
  · match a with
    | ⟨0, _⟩ => rfl
    | ⟨1, _⟩ => rfl
    | ⟨2, _⟩ => rfl
  · refine shapeCast_apply y hc _ _ ?_
    rw [Shape.rowMajor_val_two, Shape.rowMajor_val_three]
    show b.val * 512 + q.val = (b.val * 1 + 0) * 512 + q.val
    omega

/-! ## The inner products: the batched product contracting the coordinate axis -/

/-- The left operand's index at table entry i and contraction position k: the batch coordinate is i's, -/
theorem lhs_dot_0 (i : S8x512x512.Idx) (k : dot_S8x512x3_S8x512x3_S8x512x512_2_2_1_1_0_0.contr.Idx) :
    (dot_S8x512x3_S8x512x3_S8x512x512_2_2_1_1_0_0.lhsIdx i k 0).val = (i 0).val := by
  unfold DotDims.lhsIdx
  rw [dif_pos (show (0 : Fin S8x512x3.rank) ∈ dot_S8x512x3_S8x512x3_S8x512x512_2_2_1_1_0_0.lhsBatch by decide)]
  rfl

/-- the row coordinate is i's row, -/
theorem lhs_dot_1 (i : S8x512x512.Idx) (k : dot_S8x512x3_S8x512x3_S8x512x512_2_2_1_1_0_0.contr.Idx) :
    (dot_S8x512x3_S8x512x3_S8x512x512_2_2_1_1_0_0.lhsIdx i k 1).val = (i 1).val := by
  unfold DotDims.lhsIdx
  rw [dif_neg (show ¬(1 : Fin S8x512x3.rank) ∈ dot_S8x512x3_S8x512x3_S8x512x512_2_2_1_1_0_0.lhsBatch by decide),
    dif_pos (show (1 : Fin S8x512x3.rank) ∈ dot_S8x512x3_S8x512x3_S8x512x512_2_2_1_1_0_0.lhsNonContracting by decide)]
  rfl

/-- and the last coordinate is the contraction position. -/
theorem lhs_dot_2 (i : S8x512x512.Idx) (k : dot_S8x512x3_S8x512x3_S8x512x512_2_2_1_1_0_0.contr.Idx) :
    (dot_S8x512x3_S8x512x3_S8x512x512_2_2_1_1_0_0.lhsIdx i k 2).val = (k ⟨0, by decide⟩).val :=
  dot_S8x512x3_S8x512x3_S8x512x512_2_2_1_1_0_0.lhsIdx_val_of_single rfl i k

/-- The right operand's index likewise: the batch coordinate is i's, -/
theorem rhs_dot_0 (i : S8x512x512.Idx) (k : dot_S8x512x3_S8x512x3_S8x512x512_2_2_1_1_0_0.contr.Idx) :
    (dot_S8x512x3_S8x512x3_S8x512x512_2_2_1_1_0_0.rhsIdx i k 0).val = (i 0).val := by
  unfold DotDims.rhsIdx
  rw [dif_pos (show (0 : Fin S8x512x3.rank) ∈ dot_S8x512x3_S8x512x3_S8x512x512_2_2_1_1_0_0.rhsBatch by decide)]
  rfl

/-- the row coordinate is i's column, -/
theorem rhs_dot_1 (i : S8x512x512.Idx) (k : dot_S8x512x3_S8x512x3_S8x512x512_2_2_1_1_0_0.contr.Idx) :
    (dot_S8x512x3_S8x512x3_S8x512x512_2_2_1_1_0_0.rhsIdx i k 1).val = (i 2).val := by
  unfold DotDims.rhsIdx
  rw [dif_neg (show ¬(1 : Fin S8x512x3.rank) ∈ dot_S8x512x3_S8x512x3_S8x512x512_2_2_1_1_0_0.rhsBatch by decide),
    dif_pos (show (1 : Fin S8x512x3.rank) ∈ dot_S8x512x3_S8x512x3_S8x512x512_2_2_1_1_0_0.rhsNonContracting by decide)]
  rfl

/-- and the last coordinate is the contraction position. -/
theorem rhs_dot_2 (i : S8x512x512.Idx) (k : dot_S8x512x3_S8x512x3_S8x512x512_2_2_1_1_0_0.contr.Idx) :
    (dot_S8x512x3_S8x512x3_S8x512x512_2_2_1_1_0_0.rhsIdx i k 2).val = (k ⟨0, by decide⟩).val :=
  dot_S8x512x3_S8x512x3_S8x512x512_2_2_1_1_0_0.rhsIdx_val_of_single rfl i k

/-- The product into the zero accumulator, at (b, r, q), is the inner product of row (b, r) of the left operand with
    row (b, q) of the right one: the sum over the one contracted axis, re-indexed by its coordinate d. -/
theorem dot_apply {φ₁ φ₂ : FTy} (u : FVec Ideal S8x512x3 φ₁) (v : FVec Ideal S8x512x3 φ₂) (b : Fin 8) (r q : Fin 512) :
    matmul dot_S8x512x3_S8x512x3_S8x512x512_2_2_1_1_0_0 none u v (constant (F := Ideal) S8x512x512 .f32 0x00000000#32) (ix3 b r q)
      = ∑ d : Fin 3, u (ix3 b r d) * v (ix3 b q d) := by
  refine (Ideal.matmul_constant_zero_apply dot_S8x512x3_S8x512x3_S8x512x512_2_2_1_1_0_0 none u v (ix3 b r q)).trans ?_
  rw [← Equiv.sum_comp (contrEquiv1 dot_S8x512x3_S8x512x3_S8x512x512_2_2_1_1_0_0 3 rfl rfl).symm]
  refine Finset.sum_congr rfl fun d _ => ?_
  have hd := contrEquiv1_symm_val dot_S8x512x3_S8x512x3_S8x512x512_2_2_1_1_0_0 3 rfl rfl d
  have el : dot_S8x512x3_S8x512x3_S8x512x512_2_2_1_1_0_0.lhsIdx (ix3 b r q)
      ((contrEquiv1 dot_S8x512x3_S8x512x3_S8x512x512_2_2_1_1_0_0 3 rfl rfl).symm d) = ix3 b r d :=
    funext fun a => Fin.ext (by
      match a with
      | ⟨0, _⟩ => exact lhs_dot_0 _ _
      | ⟨1, _⟩ => exact lhs_dot_1 _ _
      | ⟨2, _⟩ => exact (lhs_dot_2 _ _).trans hd)
  have er : dot_S8x512x3_S8x512x3_S8x512x512_2_2_1_1_0_0.rhsIdx (ix3 b r q)
      ((contrEquiv1 dot_S8x512x3_S8x512x3_S8x512x512_2_2_1_1_0_0 3 rfl rfl).symm d) = ix3 b q d :=
    funext fun a => Fin.ext (by
      match a with
      | ⟨0, _⟩ => exact rhs_dot_0 _ _
      | ⟨1, _⟩ => exact rhs_dot_1 _ _
      | ⟨2, _⟩ => exact (rhs_dot_2 _ _).trans hd)
  rw [el, er]

/-! ## The minimum over the candidates -/

/-- A minimum over the last axis of the [8, 512, 512] table from the word of +inf, at (b, r), is the fold of min from
    +inf over the candidates q of the entries (b, r, q): the fold over the set of table indices that drop to (b, r) is
    the fold over the dropped axis's coordinates, min being commutative and associative. -/
theorem rowMin_apply (w : FVec Ideal S8x512x512 .f32) (h : S8x512x512.Reduces [2] S8x512) (hφ : FKind.Formats .f32)
    (hacc : (0x7F800000#32 : BitVec 32) = FKind.minimumf.neutral .f32 hφ) (b : Fin 8) (r : Fin 512) :
    multiReduction .minimumf [2] S8x512 w 0x7F800000#32 h hφ hacc (ix2 b r) = minOver fun q : Fin 512 => w (ix3 b r q) := by
  refine (multiReduction_minimumf_eq_fold w _ h hφ hacc (ix2 b r)).trans ?_
  refine (h.fold_filter_drop_single (FloatOps.minimumf (F := Ideal) (φ := .f32)) (FloatOps.ofBits .f32 0x7F800000#32) w (ix2 b r)).trans ?_
  show (Finset.univ : Finset (Fin 512)).fold min top (w ∘ h.lift (ix2 b r)) = (Finset.univ : Finset (Fin 512)).fold min top fun q => w (ix3 b r q)
  refine congrArg (fun f => (Finset.univ : Finset (Fin 512)).fold min top f) (funext fun q => congrArg w (funext fun a => Fin.ext ?_))
  match a with
  | ⟨0, _⟩ => rfl
  | ⟨1, _⟩ => rfl
  | ⟨2, _⟩ => rfl

/-! ## The payloads -/

/-- The value the running minimum starts from is +inf everywhere: a splat of its word. -/
theorem pay1_apply (j : S8x512.Idx) : (k0_pay1 (F := Ideal)) j = top := rfl

/-- One step at (b, r): the minimum of the running value with the minimum, over the 512 candidates q of the tile, of
    the floored squared distance from point (b, r) of the first tile to point (b, q) of the second. The outer minimum is
    pointwise and the last reshape is the identity; the row minimum is the fold over q; under it, entry (b, r, q) of the
    table is pointwise max / subtract / add / multiply of: the squared norm of (b, r) read along a column, the squared
    norm of (b, q) read along a row, the literal 2 times the inner product, and the literal 0. -/
theorem pay2_apply (x0 x1 : FVec Ideal S8x512x3 .f32) (xo : FVec Ideal S8x512 .f32) (b : Fin 8) (r : Fin 512) :
    k0_pay2 (F := Ideal) x0 x1 xo (ix2 b r)
      = min (xo (ix2 b r)) (minOver fun q : Fin 512 => d2 (fun d => x0 (ix3 b r d)) (fun d => x1 (ix3 b q d))) := by
  unfold k0_pay2
  dsimp only
  rw [minimumf_apply, shapeCast_self]
  refine congrArg (min (xo (ix2 b r))) ((rowMin_apply _ _ _ _ b r).trans ?_)
  refine congrArg minOver (funext fun q => ?_)
  unfold d2
  rw [maximumf_apply, subf_apply, addf_apply, mulf_apply, broadcast_apply, broadcast_apply, col_apply, row_apply, dot_apply]
  -- the two squared norms are lane sums of the pointwise squares; narrowing the product's operands changes nothing
  exact congrArg₂ max (congrArg₂ (· - ·) (congrArg₂ (· + ·) (laneSum_apply _ _ _ _ b r) (laneSum_apply _ _ _ _ b q)) rfl) rfl

/-- The second call's payloads are the same terms as the first's. -/
theorem k1_pay1_eq : (k1_pay1 (F := Ideal)) = k0_pay1 := rfl

theorem k1_pay2_eq (x0 x1 : FVec Ideal S8x512x3 .f32) (xo : FVec Ideal S8x512 .f32) :
    k1_pay2 (F := Ideal) x0 x1 xo = k0_pay2 x0 x1 xo := rfl

end Cert.KernelIdeal.Pay

end
-- ==== Proof.Nearest0.lean ====
/-
  The first pallas_call: its result array is the nearest-candidate distance of every query point.

  Fix a query row `(b, n)`, `n = 512 (t / 8) + r`. After grid point `t` the output tile holds, at `(b, r)`, the
  minimum of the floored squared distances to the candidates `m < 512 (t % 8 + 1)`: at the first candidate tile the
  body takes the minimum of `+∞` with the tile's 512 distances, at each later one the minimum of what the point before
  left with the next 512 (induction over the points, the two cases the closed forms of the body's branch). The tile
  is written back after the last candidate tile, when the bound is 4096: the minimum over all candidates. The eight
  written tiles tile the `[8, 4096]` array.
-/
import proofs.«107743_j28183575396380_1_alg».proof.Proof.Tiles0
import proofs.«107743_j28183575396380_1_alg».proof.Proof.Payload
import proofs.«107743_j28183575396380_1_alg».proof.Proof.Spec

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Reg0

open Cert.KernelIdeal Cert.KernelIdeal.Gen Cert.Chamfer Cert.KernelIdeal.Pay

variable (V : (c : Dev nD) → (b : Ref sig .tc) → Buf (Elt Ideal) ((c : Thread nD τ).loc b))

/-- The distances from query row `(b, n)` to every candidate row of the batch. -/
abbrev cand (c : Dev nD) (b : Fin 8) (n : Fin 4096) : Fin 4096 → EReal :=
  fun m => d2 (row (qarr V c) b n) (row (carr V c) b m)

/-- Row `r` of the query tile is the query row it restricts. -/
theorem qrow_eq (c : Dev nD) (t : Fin cfg0.N) (b : Fin 8) (r : Fin 512) (n : Fin 4096)
    (hn : n.val = 512 * (t.val / 8) + r.val) : (fun d => qblk V c t (ix3 b r d)) = row (qarr V c) b n :=
  funext fun d => qblk_apply V c t b r d n hn

/-- Row `q` of the candidate tile is the candidate row it restricts. -/
theorem crow_eq (c : Dev nD) (t : Fin cfg0.N) (b : Fin 8) (q : Fin 512) (n : Fin 4096)
    (hn : n.val = 512 * (t.val % 8) + q.val) : (fun d => cblk V c t (ix3 b q d)) = row (carr V c) b n :=
  funext fun d => cblk_apply V c t b q d n hn

/-- At a first candidate tile (`k % 8 = 0`) the tile's entry is the minimum of `+∞` with the first 512 distances. -/
theorem acc_first (c : Dev nD) (k : ℕ) (h : k < cfg0.N) (h0 : k % 8 = 0) (b : Fin 8) (r : Fin 512) (n : Fin 4096)
    (hn : n.val = 512 * (k / 8) + r.val) :
    MinBelow (outsAt0 V c k h (ix2 b r)) (512 * (k % 8 + 1)) (cand V c b n) := by
  have e : outsAt0 V c k h (ix2 b r) = min top (minOver fun q : Fin 512 => cand V c b n ⟨q.val, by omega⟩) := by
    rw [outsAt0_A V c ⟨k, h⟩ h0, out_A]
    refine (pay2_apply (qblk V c ⟨k, h⟩) (cblk V c ⟨k, h⟩) _ b r).trans ?_
    refine congrArg₂ min (pay1_apply (ix2 b r)) ?_
    rw [qrow_eq V c ⟨k, h⟩ b r n hn]
    refine congrArg minOver (funext fun q => ?_)
    rw [crow_eq V c ⟨k, h⟩ b q ⟨q.val, by omega⟩ (by show q.val = 512 * (k % 8) + q.val; omega)]
  rw [e, show 512 * (k % 8 + 1) = 512 from by omega]
  exact MinBelow.first _ _ (fun q => rfl)

/-- At a later candidate tile the entry is the minimum of what the point before left with the next 512 distances. -/
theorem acc_next (c : Dev nD) (k : ℕ) (h : k + 1 < cfg0.N) (h0 : ¬(k + 1) % 8 = 0) (b : Fin 8) (r : Fin 512) (n : Fin 4096)
    (hn : n.val = 512 * ((k + 1) / 8) + r.val)
    (ih : MinBelow (outsAt0 V c k (Nat.lt_of_succ_lt h) (ix2 b r)) (512 * (k % 8 + 1)) (cand V c b n)) :
    MinBelow (outsAt0 V c (k + 1) h (ix2 b r)) (512 * ((k + 1) % 8 + 1)) (cand V c b n) := by
  have hk : 512 * (k % 8 + 1) + 512 ≤ 4096 := by omega
  have e : outsAt0 V c (k + 1) h (ix2 b r) = min (outsAt0 V c k (Nat.lt_of_succ_lt h) (ix2 b r))
      (minOver fun q : Fin 512 => cand V c b n ⟨512 * (k % 8 + 1) + q.val, by omega⟩) := by
    rw [outsAt0_B V c ⟨k + 1, h⟩ h0, out_B]
    refine (pay2_apply (qblk V c ⟨k + 1, h⟩) (cblk V c ⟨k + 1, h⟩) _ b r).trans ?_
    rw [qrow_eq V c ⟨k + 1, h⟩ b r n hn]
    refine congrArg₂ min rfl (congrArg minOver (funext fun q => ?_))
    rw [crow_eq V c ⟨k + 1, h⟩ b q ⟨512 * (k % 8 + 1) + q.val, by omega⟩
      (by show 512 * (k % 8 + 1) + q.val = 512 * ((k + 1) % 8) + q.val; omega)]
  rw [e, show 512 * ((k + 1) % 8 + 1) = 512 * (k % 8 + 1) + 512 from by omega]
  exact ih.next hk _ (fun q => rfl)

/-- THE RUNNING MINIMUM: after point `k` the output tile holds at `(b, r)` the minimum over the candidates below
    `512 (k % 8 + 1)`, for the query row `n = 512 (k / 8) + r`. -/
theorem acc_inv (c : Dev nD) : ∀ (k : ℕ) (h : k < cfg0.N) (b : Fin 8) (r : Fin 512) (n : Fin 4096),
    n.val = 512 * (k / 8) + r.val → MinBelow (outsAt0 V c k h (ix2 b r)) (512 * (k % 8 + 1)) (cand V c b n) := by
  intro k
  induction k with
  | zero => exact fun h b r n hn => acc_first V c 0 h rfl b r n hn
  | succ k ih =>
    intro h b r n hn
    by_cases h0 : (k + 1) % 8 = 0
    · exact acc_first V c (k + 1) h h0 b r n hn
    · exact acc_next V c k h h0 b r n hn (ih (Nat.lt_of_succ_lt h) b r n (by omega))

/-! ## From the tiles to the array -/

/-- The specification at an index given by its coordinates. -/
theorem nearest_apply (A B : Vec Ideal S8x4096x3 .f32) (i : S8x4096.Idx) (b : Fin 8) (n : Fin 4096)
    (h0 : (i 0).val = b.val) (h1 : (i 1).val = n.val) : nearest A B i = near A B b n := by
  unfold nearest
  exact congrArg₂ (near A B) (Fin.ext h0) (Fin.ext h1)

/-- What the point after the last candidate tile writes back is its tile of the specification. -/
theorem flushed_eq (c : Dev nD) (t : Fin cfg0.N) (hf : (cfg0.win 2).flush t = true) :
    (dat0 V c).flushed 2 t = ((cfg0.win 2).blk t).view.read (Elt Ideal) (nearest (qarr V c) (carr V c)) := by
  have h7 : t.val % 8 = 7 := (flush0_2 t).mp hf
  obtain ⟨-, -, -, -, -, -, e0, e1⟩ := idx_facts t
  show (cfg0.win 2).cut (grid0.coords t) ((dat0 V c).after 2 t) = _
  rw [after0_2]
  show (outsAt0 V c t.val t.isLt : Vec Ideal S8x512 .f32) = fun j : S8x512.Idx => nearest (qarr V c) (carr V c) (((cfg0.win 2).blk t).view.emb j)
  funext j
  obtain ⟨b, r, rfl⟩ : ∃ (b : Fin 8) (r : Fin 512), j = ix2 b r := ⟨j 0, j 1, eq_ix2 j⟩
  have hN : t.val < 64 := lt_of_lt_of_eq t.isLt (show cfg0.N = 64 from N_0)
  have hv := acc_inv V c t.val t.isLt b r ⟨512 * (t.val / 8) + r.val, by omega⟩ rfl
  rw [show 512 * (t.val % 8 + 1) = 4096 from by omega] at hv
  rw [hv.eq_minOver]
  refine (nearest_apply _ _ _ b ⟨512 * (t.val / 8) + r.val, by omega⟩ ?_ ?_).symm
  · show win0_2.index t (0 : Fin 2) * 8 + 1 * b.val = b.val; omega
  · show win0_2.index t (1 : Fin 2) * 512 + 1 * r.val = 512 * (t.val / 8) + r.val; omega

/-- An index of the array is in point `t`'s tile iff each coordinate is in the tile's range on its axis. -/
theorem mem_blk (t : Fin cfg0.N) (i : S8x4096.Idx) :
    i ∈ ((cfg0.win 2).blk t).view.set ↔ ∀ a : Fin 2, win0_2.index t a * S8x512.size a ≤ (i a).val ∧ (i a).val < win0_2.index t a * S8x512.size a + S8x512.size a := by
  show i ∈ ((View.whole main_v0).slice (win0_2.rect t)).set ↔ _
  rw [View.set_slice_whole, Rect.mem_set_unit]
  exact Iff.rfl

/-- THE RESULT ARRAY of the first pallas_call: every query point's distance to its nearest candidate. Column `n` is
    written back by the point `8 (n / 512) + 7`. -/
theorem final (c : Dev nD) : (dat0 V c).arrAt 2 cfg0.N = nearest (qarr V c) (carr V c) :=
  (dat0 V c).arrAt_eq_of_cover 2 (nearest (qarr V c) (carr V c)) (flushed_eq V c) fun i => by
    have hi0 : (i 0).val < 8 := (i 0).isLt
    have hi1 : (i 1).val < 4096 := (i 1).isLt
    have hN : cfg0.N = 64 := N_0
    let t : Fin cfg0.N := ⟨8 * ((i 1).val / 512) + 7, by omega⟩
    have ht : t.val = 8 * ((i 1).val / 512) + 7 := rfl
    obtain ⟨-, -, -, -, -, -, e0, e1⟩ := idx_facts t
    refine ⟨t, (flush0_2 t).mpr (by omega), ?_⟩
    rw [mem_blk]
    intro a
    match a with
    | ⟨0, _⟩ => show win0_2.index t (0 : Fin 2) * 8 ≤ (i 0).val ∧ (i 0).val < win0_2.index t (0 : Fin 2) * 8 + 8; omega
    | ⟨1, _⟩ => show win0_2.index t (1 : Fin 2) * 512 ≤ (i 1).val ∧ (i 1).val < win0_2.index t (1 : Fin 2) * 512 + 512; omega

end Cert.KernelIdeal.Reg0

end
-- ==== Proof.Tiles1.lean ====
/-
  The second pallas_call (query points: argument 1; candidate points: argument 0), one grid point at a time.

  The grid is 8 × 8: point `t` works on query tile `t / 8` (512 query points of every batch) against candidate tile
  `t % 8`. What the body leaves in the output tile is the body's last stored value: at the first candidate tile the
  running minimum is first reset to `+∞` and that reset is what the body reads back; at the others it reads what the
  point before left. The two input tiles are plain restrictions of the argument arrays.
-/
import proofs.«107743_j28183575396380_1_alg».proof.Proof.Gen.KernelIdeal.Frame
import Idealize.ShloMosaic.Lib.Pipeline.Value
import Idealize.ShloMosaic.Lib.ValueIdx
import Idealize.ShloMosaic.Lib.Tactic

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Reg1

open Cert.KernelIdeal Cert.KernelIdeal.Gen

variable {F : FTy → Type} [FloatOps F]

theorem hz2 : (![0, 0] : Fin 2 → Nat) = fun _ => 0 := funext fun a => by fin_cases a <;> rfl
theorem hz3 : (![0, 0, 0] : Fin 3 → Nat) = fun _ => 0 := funext fun a => by fin_cases a <;> rfl

/-- At a later candidate tile the body leaves the minimum of what the output tile held and this tile's minima. -/
theorem out_B (c : Dev nD) (i : grid1.Coords) (a2 : Memref sig .tc .vmem S8x512x3 .f32) (h2 : a2.IsWhole)
    (a3 : Memref sig .tc .vmem S8x512x3 .f32) (h3 : a3.IsWhole) (a4 : Memref sig .tc .vmem S8x512 .f32) (h4 : a4.IsWhole)
    (hc : ¬cond1_0 i) (x0 x1 : Vec F S8x512x3 .f32) (xo : Vec F S8x512 .f32) :
    out1_B_2 c i a2 h2 a3 h3 a4 h4 hc x0 x1 xo = k1_pay2 x0 x1 xo := by
  unfold out1_B_2
  rw [View.read_writes_eq_canon _ _ _ (cover1_B_2 c i a2 h2 a3 h3 a4 h4 hc x0 x1 xo)]
  unfold kernelRun1_B
  dsimp only
  sl_unfold_words
  rw [View.canon_unit_zero hz2]
  simp only [View.readAt_eq_ld, h2.read_unread, h3.read_unread, h4.read_unread, View.ld_unit_zero (S := S8x512x3) hz3,
    View.ld_unit_zero (S := S8x512) hz2]

/-- At the first candidate tile the body first resets the output tile to `+∞` and reads that back: it leaves the
    minimum of `+∞` and this tile's minima. -/
theorem out_A (c : Dev nD) (i : grid1.Coords) (a2 : Memref sig .tc .vmem S8x512x3 .f32) (h2 : a2.IsWhole)
    (a3 : Memref sig .tc .vmem S8x512x3 .f32) (h3 : a3.IsWhole) (a4 : Memref sig .tc .vmem S8x512 .f32) (h4 : a4.IsWhole)
    (hc : cond1_0 i) (x0 x1 : Vec F S8x512x3 .f32) :
    out1_A_2 c i a2 h2 a3 h3 a4 h4 hc x0 x1 = k1_pay2 x0 x1 (k1_pay1 (F := F)) := by
  unfold out1_A_2
  rw [View.read_writes_eq_canon _ _ _ (cover1_A_2 c i a2 h2 a3 h3 a4 h4 hc x0 x1)]
  unfold kernelRun1_A
  dsimp only
  sl_unfold_words
  rw [View.canon_cons_unit_zero (S := S8x512) hz2]
  simp only [View.readAt_eq_ld, h2.read_unread, h3.read_unread, View.ld_unit_zero (S := S8x512x3) hz3,
    View.readCov_unit_zero (S := S8x512) _ hz2]

/-! ## The tiles are restrictions of the arrays -/

/-- Which tile each window is on at grid point `t`: decided over the 64 points. -/
theorem idx_facts : ∀ t : Fin cfg1.N,
    win1_0.index t (0 : Fin 3) = 0 ∧ win1_0.index t (1 : Fin 3) = t.val / 8 ∧ win1_0.index t (2 : Fin 3) = 0
    ∧ win1_1.index t (0 : Fin 3) = 0 ∧ win1_1.index t (1 : Fin 3) = t.val % 8 ∧ win1_1.index t (2 : Fin 3) = 0
    ∧ win1_2.index t (0 : Fin 2) = 0 ∧ win1_2.index t (1 : Fin 2) = t.val / 8 :=
  (by decide +kernel : ∀ t : Fin grid1.N, _)

variable (V : (c : Dev nD) → (b : Ref sig .tc) → Buf (Elt F) ((c : Thread nD τ).loc b))

/-- The query tile at point `t`, the candidate tile, and the two arrays, at their literal types. -/
abbrev qblk (c : Dev nD) (t : Fin cfg1.N) : Vec F S8x512x3 .f32 := iblk1 V c 0 t
abbrev cblk (c : Dev nD) (t : Fin cfg1.N) : Vec F S8x512x3 .f32 := iblk1 V c 1 t
abbrev qarr (c : Dev nD) : Vec F S8x4096x3 .f32 := V c main_arg1
abbrev carr (c : Dev nD) : Vec F S8x4096x3 .f32 := V c main_arg0

/-- Query tile `t / 8`: row `r` of the tile is row `512 (t / 8) + r` of argument 1. -/
theorem qblk_apply (c : Dev nD) (t : Fin cfg1.N) (b : Fin 8) (r : Fin 512) (d : Fin 3) (n : Fin 4096)
    (hn : n.val = 512 * (t.val / 8) + r.val) : qblk V c t (ix3 b r d) = qarr V c (ix3 b n d) := by
  obtain ⟨e0, e1, e2, -, -, -, -, -⟩ := idx_facts t
  unfold qblk qarr iblk1
  rw [View.read_apply]
  show V c main_arg1 (((cfg1.win 0).blk t).view.emb (ix3 b r d)) = V c main_arg1 (ix3 b n d)
  congr 1
  funext a; apply Fin.ext
  match a with
  | ⟨0, _⟩ => show win1_0.index t (0 : Fin 3) * 8 + 1 * b.val = b.val; omega
  | ⟨1, _⟩ => show win1_0.index t (1 : Fin 3) * 512 + 1 * r.val = n.val; omega
  | ⟨2, _⟩ => show win1_0.index t (2 : Fin 3) * 3 + 1 * d.val = d.val; omega

/-- Candidate tile `t % 8`: row `q` of the tile is row `512 (t % 8) + q` of argument 0. -/
theorem cblk_apply (c : Dev nD) (t : Fin cfg1.N) (b : Fin 8) (q : Fin 512) (d : Fin 3) (n : Fin 4096)
    (hn : n.val = 512 * (t.val % 8) + q.val) : cblk V c t (ix3 b q d) = carr V c (ix3 b n d) := by
  obtain ⟨-, -, -, e0, e1, e2, -, -⟩ := idx_facts t
  unfold cblk carr iblk1
  rw [View.read_apply]
  show V c main_arg0 (((cfg1.win 1).blk t).view.emb (ix3 b q d)) = V c main_arg0 (ix3 b n d)
  congr 1
  funext a; apply Fin.ext
  match a with
  | ⟨0, _⟩ => show win1_1.index t (0 : Fin 3) * 8 + 1 * b.val = b.val; omega
  | ⟨1, _⟩ => show win1_1.index t (1 : Fin 3) * 512 + 1 * q.val = n.val; omega
  | ⟨2, _⟩ => show win1_1.index t (2 : Fin 3) * 3 + 1 * d.val = d.val; omega

end Cert.KernelIdeal.Reg1

end
-- ==== Proof.Nearest1.lean ====
/-
  The second pallas_call: its result array is the nearest-candidate distance of every query point.

  Fix a query row `(b, n)`, `n = 512 (t / 8) + r`. After grid point `t` the output tile holds, at `(b, r)`, the
  minimum of the floored squared distances to the candidates `m < 512 (t % 8 + 1)`: at the first candidate tile the
  body takes the minimum of `+∞` with the tile's 512 distances, at each later one the minimum of what the point before
  left with the next 512 (induction over the points, the two cases the closed forms of the body's branch). The tile
  is written back after the last candidate tile, when the bound is 4096: the minimum over all candidates. The eight
  written tiles tile the `[8, 4096]` array.
-/
import proofs.«107743_j28183575396380_1_alg».proof.Proof.Tiles1
import proofs.«107743_j28183575396380_1_alg».proof.Proof.Payload
import proofs.«107743_j28183575396380_1_alg».proof.Proof.Spec

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Reg1

open Cert.KernelIdeal Cert.KernelIdeal.Gen Cert.Chamfer Cert.KernelIdeal.Pay

variable (V : (c : Dev nD) → (b : Ref sig .tc) → Buf (Elt Ideal) ((c : Thread nD τ).loc b))

/-- The distances from query row `(b, n)` to every candidate row of the batch. -/
abbrev cand (c : Dev nD) (b : Fin 8) (n : Fin 4096) : Fin 4096 → EReal :=
  fun m => d2 (row (qarr V c) b n) (row (carr V c) b m)

/-- Row `r` of the query tile is the query row it restricts. -/
theorem qrow_eq (c : Dev nD) (t : Fin cfg1.N) (b : Fin 8) (r : Fin 512) (n : Fin 4096)
    (hn : n.val = 512 * (t.val / 8) + r.val) : (fun d => qblk V c t (ix3 b r d)) = row (qarr V c) b n :=
  funext fun d => qblk_apply V c t b r d n hn

/-- Row `q` of the candidate tile is the candidate row it restricts. -/
theorem crow_eq (c : Dev nD) (t : Fin cfg1.N) (b : Fin 8) (q : Fin 512) (n : Fin 4096)
    (hn : n.val = 512 * (t.val % 8) + q.val) : (fun d => cblk V c t (ix3 b q d)) = row (carr V c) b n :=
  funext fun d => cblk_apply V c t b q d n hn

/-- At a first candidate tile (`k % 8 = 0`) the tile's entry is the minimum of `+∞` with the first 512 distances. -/
theorem acc_first (c : Dev nD) (k : ℕ) (h : k < cfg1.N) (h0 : k % 8 = 0) (b : Fin 8) (r : Fin 512) (n : Fin 4096)
    (hn : n.val = 512 * (k / 8) + r.val) :
    MinBelow (outsAt1 V c k h (ix2 b r)) (512 * (k % 8 + 1)) (cand V c b n) := by
  have e : outsAt1 V c k h (ix2 b r) = min top (minOver fun q : Fin 512 => cand V c b n ⟨q.val, by omega⟩) := by
    rw [outsAt1_A V c ⟨k, h⟩ h0, out_A]
    refine (pay2_apply (qblk V c ⟨k, h⟩) (cblk V c ⟨k, h⟩) _ b r).trans ?_
    refine congrArg₂ min (pay1_apply (ix2 b r)) ?_
    rw [qrow_eq V c ⟨k, h⟩ b r n hn]
    refine congrArg minOver (funext fun q => ?_)
    rw [crow_eq V c ⟨k, h⟩ b q ⟨q.val, by omega⟩ (by show q.val = 512 * (k % 8) + q.val; omega)]
  rw [e, show 512 * (k % 8 + 1) = 512 from by omega]
  exact MinBelow.first _ _ (fun q => rfl)

/-- At a later candidate tile the entry is the minimum of what the point before left with the next 512 distances. -/
theorem acc_next (c : Dev nD) (k : ℕ) (h : k + 1 < cfg1.N) (h0 : ¬(k + 1) % 8 = 0) (b : Fin 8) (r : Fin 512) (n : Fin 4096)
    (hn : n.val = 512 * ((k + 1) / 8) + r.val)
    (ih : MinBelow (outsAt1 V c k (Nat.lt_of_succ_lt h) (ix2 b r)) (512 * (k % 8 + 1)) (cand V c b n)) :
    MinBelow (outsAt1 V c (k + 1) h (ix2 b r)) (512 * ((k + 1) % 8 + 1)) (cand V c b n) := by
  have hk : 512 * (k % 8 + 1) + 512 ≤ 4096 := by omega
  have e : outsAt1 V c (k + 1) h (ix2 b r) = min (outsAt1 V c k (Nat.lt_of_succ_lt h) (ix2 b r))
      (minOver fun q : Fin 512 => cand V c b n ⟨512 * (k % 8 + 1) + q.val, by omega⟩) := by
    rw [outsAt1_B V c ⟨k + 1, h⟩ h0, out_B]
    refine (pay2_apply (qblk V c ⟨k + 1, h⟩) (cblk V c ⟨k + 1, h⟩) _ b r).trans ?_
    rw [qrow_eq V c ⟨k + 1, h⟩ b r n hn]
    refine congrArg₂ min rfl (congrArg minOver (funext fun q => ?_))
    rw [crow_eq V c ⟨k + 1, h⟩ b q ⟨512 * (k % 8 + 1) + q.val, by omega⟩
      (by show 512 * (k % 8 + 1) + q.val = 512 * ((k + 1) % 8) + q.val; omega)]
  rw [e, show 512 * ((k + 1) % 8 + 1) = 512 * (k % 8 + 1) + 512 from by omega]
  exact ih.next hk _ (fun q => rfl)

/-- THE RUNNING MINIMUM: after point `k` the output tile holds at `(b, r)` the minimum over the candidates below
    `512 (k % 8 + 1)`, for the query row `n = 512 (k / 8) + r`. -/
theorem acc_inv (c : Dev nD) : ∀ (k : ℕ) (h : k < cfg1.N) (b : Fin 8) (r : Fin 512) (n : Fin 4096),
    n.val = 512 * (k / 8) + r.val → MinBelow (outsAt1 V c k h (ix2 b r)) (512 * (k % 8 + 1)) (cand V c b n) := by
  intro k
  induction k with
  | zero => exact fun h b r n hn => acc_first V c 0 h rfl b r n hn
  | succ k ih =>
    intro h b r n hn
    by_cases h0 : (k + 1) % 8 = 0
    · exact acc_first V c (k + 1) h h0 b r n hn
    · exact acc_next V c k h h0 b r n hn (ih (Nat.lt_of_succ_lt h) b r n (by omega))

/-! ## From the tiles to the array -/

/-- The specification at an index given by its coordinates. -/
theorem nearest_apply (A B : Vec Ideal S8x4096x3 .f32) (i : S8x4096.Idx) (b : Fin 8) (n : Fin 4096)
    (h0 : (i 0).val = b.val) (h1 : (i 1).val = n.val) : nearest A B i = near A B b n := by
  unfold nearest
  exact congrArg₂ (near A B) (Fin.ext h0) (Fin.ext h1)

/-- What the point after the last candidate tile writes back is its tile of the specification. -/
theorem flushed_eq (c : Dev nD) (t : Fin cfg1.N) (hf : (cfg1.win 2).flush t = true) :
    (dat1 V c).flushed 2 t = ((cfg1.win 2).blk t).view.read (Elt Ideal) (nearest (qarr V c) (carr V c)) := by
  have h7 : t.val % 8 = 7 := (flush1_2 t).mp hf
  obtain ⟨-, -, -, -, -, -, e0, e1⟩ := idx_facts t
  show (cfg1.win 2).cut (grid1.coords t) ((dat1 V c).after 2 t) = _
  rw [after1_2]
  show (outsAt1 V c t.val t.isLt : Vec Ideal S8x512 .f32) = fun j : S8x512.Idx => nearest (qarr V c) (carr V c) (((cfg1.win 2).blk t).view.emb j)
  funext j
  obtain ⟨b, r, rfl⟩ : ∃ (b : Fin 8) (r : Fin 512), j = ix2 b r := ⟨j 0, j 1, eq_ix2 j⟩
  have hN : t.val < 64 := lt_of_lt_of_eq t.isLt (show cfg1.N = 64 from N_1)
  have hv := acc_inv V c t.val t.isLt b r ⟨512 * (t.val / 8) + r.val, by omega⟩ rfl
  rw [show 512 * (t.val % 8 + 1) = 4096 from by omega] at hv
  rw [hv.eq_minOver]
  refine (nearest_apply _ _ _ b ⟨512 * (t.val / 8) + r.val, by omega⟩ ?_ ?_).symm
  · show win1_2.index t (0 : Fin 2) * 8 + 1 * b.val = b.val; omega
  · show win1_2.index t (1 : Fin 2) * 512 + 1 * r.val = 512 * (t.val / 8) + r.val; omega

/-- An index of the array is in point `t`'s tile iff each coordinate is in the tile's range on its axis. -/
theorem mem_blk (t : Fin cfg1.N) (i : S8x4096.Idx) :
    i ∈ ((cfg1.win 2).blk t).view.set ↔ ∀ a : Fin 2, win1_2.index t a * S8x512.size a ≤ (i a).val ∧ (i a).val < win1_2.index t a * S8x512.size a + S8x512.size a := by
  show i ∈ ((View.whole main_v1).slice (win1_2.rect t)).set ↔ _
  rw [View.set_slice_whole, Rect.mem_set_unit]
  exact Iff.rfl

/-- THE RESULT ARRAY of the second pallas_call: every query point's distance to its nearest candidate. Column `n` is
    written back by the point `8 (n / 512) + 7`. -/
theorem final (c : Dev nD) : (dat1 V c).arrAt 2 cfg1.N = nearest (qarr V c) (carr V c) :=
  (dat1 V c).arrAt_eq_of_cover 2 (nearest (qarr V c) (carr V c)) (flushed_eq V c) fun i => by
    have hi0 : (i 0).val < 8 := (i 0).isLt
    have hi1 : (i 1).val < 4096 := (i 1).isLt
    have hN : cfg1.N = 64 := N_1
    let t : Fin cfg1.N := ⟨8 * ((i 1).val / 512) + 7, by omega⟩
    have ht : t.val = 8 * ((i 1).val / 512) + 7 := rfl
    obtain ⟨-, -, -, -, -, -, e0, e1⟩ := idx_facts t
    refine ⟨t, (flush1_2 t).mpr (by omega), ?_⟩
    rw [mem_blk]
    intro a
    match a with
    | ⟨0, _⟩ => show win1_2.index t (0 : Fin 2) * 8 ≤ (i 0).val ∧ (i 0).val < win1_2.index t (0 : Fin 2) * 8 + 8; omega
    | ⟨1, _⟩ => show win1_2.index t (1 : Fin 2) * 512 ≤ (i 1).val ∧ (i 1).val < win1_2.index t (1 : Fin 2) * 512 + 512; omega

end Cert.KernelIdeal.Reg1

end
-- ==== Proof.KernelValue.lean ====
/-
  The kernel program's result as a function of its two arguments.

  The first pallas_call leaves in its result array every point of argument 0's distance to its nearest point of
  argument 1, the second the same with the two arguments exchanged (its windows take them in the other order). Nothing
  between the calls writes an argument, so the second call finds them as launched. The host operations after the calls
  take the mean of each array — the sum over both axes divided by 32768 — and add the two means.
-/
import proofs.«107743_j28183575396380_1_alg».proof.Proof.Nearest0
import proofs.«107743_j28183575396380_1_alg».proof.Proof.Nearest1
import proofs.«107743_j28183575396380_1_alg».proof.Proof.KernelRun
import Idealize.ShloMosaic.Lib.StableHlo.Run

set_option maxRecDepth 16384

noncomputable section

open Idealize.ShloMosaic Idealize.ShloMosaic.TcCoe Idealize.SL.Sem
open Idealize.ShloMosaic.Pipeline (Dat)

namespace Cert.KernelIdeal.Result

open Cert.KernelIdeal Cert.KernelIdeal.Gen Cert.Chamfer

section AnyF
variable {F : FTy → Type} [FloatOps F]
variable (m : (ℓ : Loc nD τ sig) → Buf (Elt F) ℓ) (ρ : Dev nD → PrngReg)

/-- The host tail both programs end with: the mean of each array (its sum over both axes from the zero word, divided by
    the word of 32768.0), and the sum of the two means. -/
def meanSum (x y : Vec F S8x4096 .f32) : Vec F S_ .f32 :=
  addf (Host.divf (Host.reduceAdd x (constant S_ .f32 0x00000000#32) reducesTo_S8x4096_S_d0_1 h_S_) (constant S_ .f32 0x47000000#32))
    (Host.divf (Host.reduceAdd y (constant S_ .f32 0x00000000#32) reducesTo_S8x4096_S_d0_1 h_S_) (constant S_ .f32 0x47000000#32))

/-- The result buffer after the host tail is that function of the two calls' result arrays. -/
theorem result_eq (c : Dev nD) : W3 m ρ c (Proc.devRef .tc main_v6)
    = meanSum (W2 m ρ c (Proc.devRef .tc main_v0)) (W2 m ρ c (Proc.devRef .tc main_v1)) := by
  show StableHlo.after hostOps2 (W2 m ρ c) (Proc.devRef .tc main_v6) = _
  after_results
  rfl

/-- The second call's result array is what its pipeline leaves; -/
theorem v1_eq (c : Dev nD) : W2 m ρ c (Proc.devRef .tc main_v1) = (dat1 (V1 m ρ) c).arrAt 2 cfg1.N := W2_arr m ρ c 2

/-- the first call's is not one of the second call's arrays, so it is still what the first pipeline left. -/
theorem v0_eq (c : Dev nD) : W2 m ρ c (Proc.devRef .tc main_v0) = (dat0 (V0 m ρ) c).arrAt 2 cfg0.N :=
  (W2_of_ne m ρ c main_v0 (fun w => by fin_cases w <;> decide)).trans (W1_arr m ρ c 2)

/-- The second call finds both arguments as launched: the first call only reads them. -/
theorem V1_arg0 (c : Dev nD) : V1 m ρ c main_arg0 = m ((c : Thread nD τ).loc main_arg0) :=
  (W1_arr m ρ c 0).trans (((dat0 (V0 m ρ) c).arrAt_in 0 rfl _).trans (A_eq0 (V0 m ρ) c 0))
theorem V1_arg1 (c : Dev nD) : V1 m ρ c main_arg1 = m ((c : Thread nD τ).loc main_arg1) :=
  (W1_arr m ρ c 1).trans (((dat0 (V0 m ρ) c).arrAt_in 1 rfl _).trans (A_eq0 (V0 m ρ) c 1))

end AnyF

variable (m : (ℓ : Loc nD τ sig) → Buf (Elt Ideal) ℓ) (ρ : Dev nD → PrngReg)

/-- At the ideal values the result is the mean nearest distance from argument 0 to argument 1 plus the one back. -/
theorem result_val (c : Dev nD) : W3 m ρ c (Proc.devRef .tc main_v6)
    = meanSum (nearest (m ((c : Thread nD τ).loc main_arg0)) (m ((c : Thread nD τ).loc main_arg1)))
        (nearest (m ((c : Thread nD τ).loc main_arg1)) (m ((c : Thread nD τ).loc main_arg0))) := by
  rw [result_eq, v0_eq, v1_eq, Reg0.final (V0 m ρ) c, Reg1.final (V1 m ρ) c]
  unfold Reg1.qarr Reg1.carr
  rw [V1_arg0, V1_arg1]

/-- The kernel program's run, with its result named. -/
theorem run : θ_run defs (onTc (τ := τ) (main (F := Ideal))) ⟨m, fun _ => 0, ρ⟩ (fun r => ∀ c : Dev nD,
      r.2.mem ((c.tc : Thread nD τ).loc main_v6)
        = meanSum (nearest (m ((c : Thread nD τ).loc main_arg0)) (m ((c : Thread nD τ).loc main_arg1)))
            (nearest (m ((c : Thread nD τ).loc main_arg1)) (m ((c : Thread nD τ).loc main_arg0)))
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun r h c => ⟨(h c).1.trans (result_val m ρ c), (h c).2⟩) (Run.run_result m ρ)

end Cert.KernelIdeal.Result

end
-- ==== Proof.RefValue.lean ====
/-
  The reference program's two nearest-distance arrays are the specification.

  The reference forms the whole table of floored squared distances, one entry per batch b and pair of points (n, m):
    T[b, n, m] = max ((Σ_d x0[b,n,d]² + Σ_d x1[b,m,d]²) − 2 · Σ_d x0[b,n,d] · x1[b,m,d]) 0,
  which is d2 of point n of x0 and point m of x1. Its first minimum runs over m (the last axis) from +∞ and is the
  distance from point n of x0 to the nearest point of x1; its second runs over n (the middle axis) and, d2 being
  symmetric, is the distance from point m of x1 to the nearest point of x0.
-/
import proofs.«107743_j28183575396380_1_alg».proof.Proof.Gen.ReferenceIdeal.Read
import proofs.«107743_j28183575396380_1_alg».proof.Proof.Spec
import Idealize.ShloMosaic.PureOps.Reduce
import Idealize.ShloMosaic.PureOps.Ideal
import Idealize.ShloMosaic.PureOps.Ideal.Laws
import Idealize.ShloMosaic.Lib.ValueIdx

noncomputable section

namespace Cert.ReferenceIdeal.RefValue

open Cert.ReferenceIdeal Cert.ReferenceIdeal.Gen Cert.ReferenceIdeal.Read Cert.Chamfer Idealize.ShloMosaic Idealize.ShloMosaic.ValueIdx

/-- The squared norms of x0 are read, through the two broadcasts, at the point (b, n) whatever m is. -/
theorem norm0_idx (b : Fin 8) (n m : Fin 4096) (k : Fin 3) :
    idx_main_v1 (idx_main_v5 (idx_main_v7 (ix3 b n m))) k = ix3 b n k :=
  funext fun a => Fin.ext (by match a with | ⟨0, _⟩ => rfl | ⟨1, _⟩ => rfl | ⟨2, _⟩ => rfl)

/-- The squared norms of x1 are read at the point (b, m) whatever n is. -/
theorem norm1_idx (b : Fin 8) (n m : Fin 4096) (k : Fin 3) :
    idx_main_v3 (idx_main_v6 (idx_main_v8 (ix3 b n m))) k = ix3 b m k :=
  funext fun a => Fin.ext (by match a with | ⟨0, _⟩ => rfl | ⟨1, _⟩ => rfl | ⟨2, _⟩ => rfl)

/-- The inner product's left factor is coordinate k of point (b, n) … -/
theorem dot_lidx (b : Fin 8) (n m : Fin 4096) (k : Fin 3) : lidx_main_v4 (ix3 b n m) k = ix3 b n k :=
  funext fun a => Fin.ext (by match a with | ⟨0, _⟩ => rfl | ⟨1, _⟩ => rfl | ⟨2, _⟩ => rfl)

/-- … and its right factor coordinate k of point (b, m). -/
theorem dot_ridx (b : Fin 8) (n m : Fin 4096) (k : Fin 3) : ridx_main_v4 (ix3 b n m) k = ix3 b m k :=
  funext fun a => Fin.ext (by match a with | ⟨0, _⟩ => rfl | ⟨1, _⟩ => rfl | ⟨2, _⟩ => rfl)

/-- Entry (b, n, m) of the distance table is d2 of point n of x0 and point m of x1. The two sums of squares start
    from the zero word, which is 0 and drops out. -/
theorem v14_apply (x0 x1 : (⟨S8x4096x3, .f32⟩ : BufTy).Contents (Elt Ideal)) (b : Fin 8) (n m : Fin 4096) :
    val_main_v14 (F := Ideal) x0 x1 (ix3 b n m) = d2 (row x0 b n) (row x1 b m) := by
  rw [val_main_v14_apply, val_main_v12_apply, val_main_v9_apply, val_main_v7_apply, val_main_v5_apply,
    val_main_v1_apply, val_main_v8_apply, val_main_v6_apply, val_main_v3_apply, val_main_v11_apply,
    val_main_v10_apply, val_main_v4_apply, val_main_v13_apply]
  simp only [val_main_v0_apply, val_main_v2_apply, val_main_cst_apply, val_main_cst_0_apply, val_main_cst_1_apply,
    val_main_cst_2_apply, norm0_idx, norm1_idx, dot_lidx, dot_ridx, Ideal.mulf_def, Ideal.addf_def, Ideal.subf_def,
    Ideal.maximumf_def, Ideal.ofBits_def]
  have hz : ∀ s : EReal, Ideal.ofBits .f32 0x00000000#32 + s = s := fun s => by rw [Ideal.ofBits_zero_f32, zero_add]
  rw [hz, hz]
  rfl

/-- The minimum over the last axis: at (b, n) the fold of min from +∞ over the points m of x1 of the table's entry
    (b, n, m), that is the distance from point n of x0 to the nearest point of x1. -/
theorem v15_apply (x0 x1 : (⟨S8x4096x3, .f32⟩ : BufTy).Contents (Elt Ideal)) (b : Fin 8) (n : Fin 4096) :
    val_main_v15 (F := Ideal) x0 x1 (ix2 b n) = near x0 x1 b n := by
  have h : S8x4096x4096.Reduces [2] S8x4096 := by decide
  unfold val_main_v15
  rw [Host.reduce_eq_fold_single FloatOps.minimumf _ _ reducesTo_S8x4096x4096_S8x4096_d2 h h_S_ (ix2 b n)]
  have hf : (val_main_v14 (F := Ideal) x0 x1 ∘ h.lift (ix2 b n)) = fun m : Fin 4096 => d2 (row x0 b n) (row x1 b m) :=
    funext fun (m : Fin 4096) => by
      have e : h.lift (ix2 b n) m = ix3 b n m :=
        funext fun c => Fin.ext (by match c with | ⟨0, _⟩ => rfl | ⟨1, _⟩ => rfl | ⟨2, _⟩ => rfl)
      show val_main_v14 (F := Ideal) x0 x1 (h.lift (ix2 b n) m) = _
      rw [e]
      exact v14_apply x0 x1 b n m
  rw [hf]
  rfl

/-- The minimum over the middle axis: at (b, m) the fold of min from +∞ over the points n of x0 of the table's entry
    (b, n, m); d2 being symmetric, that is the distance from point m of x1 to the nearest point of x0. -/
theorem v16_apply (x0 x1 : (⟨S8x4096x3, .f32⟩ : BufTy).Contents (Elt Ideal)) (b : Fin 8) (m : Fin 4096) :
    val_main_v16 (F := Ideal) x0 x1 (ix2 b m) = near x1 x0 b m := by
  have h : S8x4096x4096.Reduces [1] S8x4096 := by decide
  unfold val_main_v16
  rw [Host.reduce_eq_fold_single FloatOps.minimumf _ _ reducesTo_S8x4096x4096_S8x4096_d1 h h_S_ (ix2 b m)]
  have hf : (val_main_v14 (F := Ideal) x0 x1 ∘ h.lift (ix2 b m)) = fun n : Fin 4096 => d2 (row x1 b m) (row x0 b n) :=
    funext fun (n : Fin 4096) => by
      have e : h.lift (ix2 b m) n = ix3 b n m :=
        funext fun c => Fin.ext (by match c with | ⟨0, _⟩ => rfl | ⟨1, _⟩ => rfl | ⟨2, _⟩ => rfl)
      show val_main_v14 (F := Ideal) x0 x1 (h.lift (ix2 b m) n) = _
      rw [e]
      exact (v14_apply x0 x1 b n m).trans (d2_comm _ _)
  rw [hf]
  rfl

/-- The reference's first minimum array is the nearest-distance array from x0 to x1. -/
theorem v15_eq (x0 x1 : (⟨S8x4096x3, .f32⟩ : BufTy).Contents (Elt Ideal)) :
    val_main_v15 (F := Ideal) x0 x1 = nearest x0 x1 := by
  funext i
  obtain ⟨b, n, rfl⟩ : ∃ (b : Fin 8) (n : Fin 4096), i = ix2 b n := ⟨i 0, i 1, eq_ix2 i⟩
  exact v15_apply x0 x1 b n

/-- The reference's second minimum array is the nearest-distance array from x1 to x0. -/
theorem v16_eq (x0 x1 : (⟨S8x4096x3, .f32⟩ : BufTy).Contents (Elt Ideal)) :
    val_main_v16 (F := Ideal) x0 x1 = nearest x1 x0 := by
  funext i
  obtain ⟨b, m, rfl⟩ : ∃ (b : Fin 8) (m : Fin 4096), i = ix2 b m := ⟨i 0, i 1, eq_ix2 i⟩
  exact v16_apply x0 x1 b m

end Cert.ReferenceIdeal.RefValue

end
-- ==== Proof.lean ====
/-
  The chamfer distance of two point sets `pred, gt : [8, 4096, 3]`: the mean over the points of `pred` of the squared
  distance to the nearest point of `gt` in the same batch, plus the same mean the other way round, every squared distance
  spelled `max (|u|² + |v|² − 2⟨u, v⟩) 0`.

  The kernel program makes two launches of one tiled kernel — 512 query points against 512 candidates per grid point,
  a running minimum kept in the output tile across the candidate tiles — once with `pred` as the queries and once with
  `gt`, then takes the two means on the host. The reference builds the whole `[8, 4096, 4096]` table of distances once and
  takes its minima along either axis. At the ideal values both are the same function (`Cert.Chamfer.nearest`) of the
  arguments: a minimum over 4096 candidates is the minimum of the minima of eight tiles of 512, and for the direction
  back the table entry `(n, m)` read from `gt`'s side is the distance with its two points exchanged, which is the same
  number because sums and products of extended reals commute. No finiteness of the inputs is used.

  `preserves`: the idealization rewrote nothing. The three frames: the two kernel programs' are the launch of the two
  regions and the host tail; the reference's is its run with the result dropped.
-/
import proofs.«107743_j28183575396380_1_alg».proof.Defs
import proofs.«107743_j28183575396380_1_alg».proof.Proof.Gen.Kernel
import proofs.«107743_j28183575396380_1_alg».proof.Proof.Gen.Kernel.Skeleton
import proofs.«107743_j28183575396380_1_alg».proof.Proof.Gen.Kernel.Launch
import proofs.«107743_j28183575396380_1_alg».proof.Proof.Gen.Kernel.Points
import proofs.«107743_j28183575396380_1_alg».proof.Proof.Gen.Kernel.Frame
import proofs.«107743_j28183575396380_1_alg».proof.Proof.Gen.KernelIdeal
import proofs.«107743_j28183575396380_1_alg».proof.Proof.Gen.KernelIdeal.Skeleton
import proofs.«107743_j28183575396380_1_alg».proof.Proof.Gen.KernelIdeal.Launch
import proofs.«107743_j28183575396380_1_alg».proof.Proof.Gen.KernelIdeal.Points
import proofs.«107743_j28183575396380_1_alg».proof.Proof.Gen.KernelIdeal.Frame
import proofs.«107743_j28183575396380_1_alg».proof.Proof.Gen.ReferenceIdeal
import proofs.«107743_j28183575396380_1_alg».proof.Proof.Gen.Pre_finite_inputs
import proofs.«107743_j28183575396380_1_alg».proof.Proof.Gen.ReferenceIdeal.Run
import proofs.«107743_j28183575396380_1_alg».proof.Proof.Gen.ReferenceIdeal.Read
import proofs.«107743_j28183575396380_1_alg».proof.Proof.KernelValue
import proofs.«107743_j28183575396380_1_alg».proof.Proof.RefValue
import Idealize.ShloMosaic.Adequacy
import Idealize.ShloMosaic.Init

noncomputable section

namespace Cert.Proof

open Idealize.ShloMosaic Idealize.SL.Sem Cert.Chamfer

/-- The reference's result is the same host tail over its two arrays of minima, which are the specification's. -/
theorem reference_result (x0 x1 : (⟨Cert.ReferenceIdeal.S8x4096x3, .f32⟩ : BufTy).Contents (Elt Ideal)) :
    Cert.ReferenceIdeal.Read.val_main_v21 (F := Ideal) x0 x1
      = Cert.KernelIdeal.Result.meanSum (nearest x0 x1) (nearest x1 x0) := by
  rw [← Cert.ReferenceIdeal.RefValue.v15_eq x0 x1, ← Cert.ReferenceIdeal.RefValue.v16_eq x0 x1]
  rfl

theorem frame_kernel : Cert.frame_Kernel := fun m ρ _ => Cert.Kernel.Gen.frame m ρ
theorem frame_kernelIdeal : Cert.frame_KernelIdeal := fun m ρ _ => Cert.KernelIdeal.Gen.frame m ρ
theorem frame_referenceIdeal : Cert.frame_ReferenceIdeal := fun m ρ _ =>
  (θ_run Cert.ReferenceIdeal.defs _ _).mono (fun _ h c => (h c).2) (Cert.ReferenceIdeal.Value.run (F := Ideal) m ρ)

/-- Both runs end with the result at the mean nearest distance one way plus the mean nearest distance back. -/
theorem algebraic : Cert.algebraic_KernelIdeal_ReferenceIdeal := by
  intro m ρ m' ρ' _ hagree
  refine ⟨_, Cert.KernelIdeal.Result.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v21_eq, (hagree c).1, (hagree c).2]
  exact reference_result _ _

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
